-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x64 : Shape := ⟨2, ![4096, 64]⟩
abbrev S64x4096 : Shape := ⟨2, ![64, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S4x2048x4096 .f32) (main_arg1 : FVec F S4096x64 .f32) (main_arg2 : FVec F S64x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  main_v13
-- ==== Kernel.lean ====
abbrev S4x2048x4096 : Shape := ⟨3, ![4, 2048, 4096]⟩
abbrev S4096x64 : Shape := ⟨2, ![4096, 64]⟩
abbrev S64x4096 : Shape := ⟨2, ![64, 4096]⟩
abbrev S8192x4096 : Shape := ⟨2, ![8192, 4096]⟩
abbrev S512x4096 : Shape := ⟨2, ![512, 4096]⟩
abbrev S512x64 : Shape := ⟨2, ![512, 64]⟩
abbrev S64x1024 : Shape := ⟨2, ![64, 1024]⟩
abbrev S512x1024 : Shape := ⟨2, ![512, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x64, .f32⟩
  | .hbm, ⟨2, _⟩ => ⟨S64x4096, .f32⟩
  | .hbm, ⟨3, _⟩ => ⟨S8192x4096, .f32⟩
  | .hbm, ⟨4, _⟩ => ⟨S64x4096, .bf16⟩
  | .hbm, ⟨5, _⟩ => ⟨S64x4096, .f32⟩
  | .hbm, ⟨6, _⟩ => ⟨S64x4096, .bf16⟩
  | .hbm, ⟨7, _⟩ => ⟨S8192x4096, .f32⟩
  | .hbm, ⟨8, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S64x4096, .bf16⟩
  | .local _ .vmem, ⟨3, _⟩ => ⟨S64x4096, .bf16⟩
  | .local _ .vmem, ⟨4, _⟩ => ⟨S512x4096, .f32⟩
  | .local _ .vmem, ⟨5, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x4096_S8192x4096 : S4x2048x4096.ShapeCasts S8192x4096
  bitsLt_bf16_f32 : FTy.bits .bf16 < FTy.bits .f32
  transposes_S4096x64_S64x4096_1_0 : S4096x64.Transposes [1, 0] S64x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S64x4096_S64x1024_0_0 : ∀ a, (![0, 0] : Fin 2 → Nat) a + S64x1024.size a ≤ S64x4096.size a
  h_S64x1024 : 0 < S64x1024.numel
  shapeCasts_S64x1024_S64x1024 : S64x1024.ShapeCasts S64x1024
  inb_S512x4096_S512x1024_0_0 : ∀ a, (![0, 0] : Fin 2 → Nat) a + S512x1024.size a ≤ S512x4096.size a
  h_S512x1024 : 0 < S512x1024.numel
  inb_S64x4096_S64x1024_0_1024 : ∀ a, (![0, 1024] : Fin 2 → Nat) a + S64x1024.size a ≤ S64x4096.size a
  inb_S512x4096_S512x1024_0_1024 : ∀ a, (![0, 1024] : Fin 2 → Nat) a + S512x1024.size a ≤ S512x4096.size a
  inb_S64x4096_S64x1024_0_2048 : ∀ a, (![0, 2048] : Fin 2 → Nat) a + S64x1024.size a ≤ S64x4096.size a
  inb_S512x4096_S512x1024_0_2048 : ∀ a, (![0, 2048] : Fin 2 → Nat) a + S512x1024.size a ≤ S512x4096.size a
  inb_S64x4096_S64x1024_0_3072 : ∀ a, (![0, 3072] : Fin 2 → Nat) a + S64x1024.size a ≤ S64x4096.size a
  inb_S512x4096_S512x1024_0_3072 : ∀ a, (![0, 3072] : Fin 2 → Nat) a + S512x1024.size a ≤ S512x4096.size a
  shapeCasts_S8192x4096_S4x2048x4096 : S8192x4096.ShapeCasts S4x2048x4096
  dot_S512x4096_S64x4096_S512x64_1_1_0_0_n_n_wf : DotDims.WF S512x4096 S64x4096 S512x64 [1] [1] [0] [0] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .bf16 = 32 ∨ (Rect.block (s := S64x4096) S64x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .bf16 = 32 ∨ (Rect.block (s := S64x4096) S64x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x64 : Shape := ⟨2, ![4096, 64]⟩
abbrev S64x4096 : Shape := ⟨2, ![64, 4096]⟩
abbrev S4x2048x64 : Shape := ⟨3, ![4, 2048, 64]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x64, .f32⟩
  | .hbm, ⟨2, _⟩ => ⟨S64x4096, .f32⟩
  | .hbm, ⟨3, _⟩ => ⟨S4x2048x64, .f32⟩
  | .hbm, ⟨4, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4x2048x4096_S64x4096_S4x2048x64_2_1_01_0_n_n_wf : DotDims.WF S4x2048x4096 S64x4096 S4x2048x64 [2] [1] [0, 1] [0] [] []
  dot_S4x2048x64_S4096x64_S4x2048x4096_2_1_01_0_n_n_wf : DotDims.WF S4x2048x64 S4096x64 S4x2048x4096 [2] [1] [0, 1] [0] [] []

variable [Facts₀]

def dot_S4x2048x4096_S64x4096_S4x2048x64_2_1_01_0_n_n : DotDims S4x2048x4096 S64x4096 S4x2048x64 where
  lhsContracting := [2]
  rhsContracting := [1]
  lhsNonContracting := [0, 1]
  rhsNonContracting := [0]
  lhsBatch := []
  rhsBatch := []
  wf := dot_S4x2048x4096_S64x4096_S4x2048x64_2_1_01_0_n_n_wf
def dot_S4x2048x64_S4096x64_S4x2048x4096_2_1_01_0_n_n : DotDims S4x2048x64 S4096x64 S4x2048x4096 where
  lhsContracting := [2]
  rhsContracting := [1]
  lhsNonContracting := [0, 1]
  rhsNonContracting := [0]
  lhsBatch := []
  rhsBatch := []
  wf := dot_S4x2048x64_S4096x64_S4x2048x4096_2_1_01_0_n_n_wf

class Facts : Prop extends Facts₀ where

variable [Facts]
-- ==== Proof.Spec.lean ====
/-
  The low-rank linear map, stated once as a function of one row of activations.

  For a row `a` of 4096 activations, rank directions `v r` (64 rows of 4096 entries) and
  expansion weights `w r q`, the output row is
      `rowOut a v w q = Σ_r (Σ_k a k · v r k) · w r q`:
  project the row onto each of the 64 rank directions, then combine the 64 projections
  with the weights of output column `q`. Both programs of this certificate compute this
  nested sum, in this nesting, so no law of the extended reals beyond reading the sums
  is needed (in particular no distributivity, hence no finiteness of the inputs).

  `lowRank x u v` is the map on the whole arrays: entry `(b, s, o)` is `rowOut` of row
  `(b, s)` of `x`, with `v` as the rank directions and `u` read transposed as weights.
-/
import Idealize.ShloMosaic.PureOps.Ideal
import Idealize.ShloMosaic.Lib.ValueIdx

noncomputable section

open scoped BigOperators

namespace Cert.LowRank

open Idealize.ShloMosaic Idealize.ShloMosaic.ValueIdx

/-- One output entry: the row's 64 projections `Σ_k a k · v r k`, combined with the weights `w r q`. -/
def rowOut (a : Fin 4096 → EReal) (v : Fin 64 → Fin 4096 → EReal) (w : Fin 64 → Fin 4096 → EReal) (q : Fin 4096) : EReal :=
  ∑ r : Fin 64, (∑ k : Fin 4096, a k * v r k) * w r q

/-- The map on a 512-row block: entry `(p, q)` from row `p` of the block, rank directions `v`, weights `ut`
    (already laid out rank-major, `[64, 4096]`). -/
def blockOut (x : (⟨2, ![512, 4096]⟩ : Shape).Idx → EReal) (v ut : (⟨2, ![64, 4096]⟩ : Shape).Idx → EReal) :
    (⟨2, ![512, 4096]⟩ : Shape).Idx → EReal :=
  fun y => rowOut (fun k => x (ix2 (y 0) k)) (fun r k => v (ix2 r k)) (fun r q => ut (ix2 r q)) (y 1)

/-- The same on the flattened `[8192, 4096]` array of all rows. -/
def flatOut (x : (⟨2, ![8192, 4096]⟩ : Shape).Idx → EReal) (v ut : (⟨2, ![64, 4096]⟩ : Shape).Idx → EReal) :
    (⟨2, ![8192, 4096]⟩ : Shape).Idx → EReal :=
  fun j => rowOut (fun k => x (ix2 (j 0) k)) (fun r k => v (ix2 r k)) (fun r q => ut (ix2 r q)) (j 1)

/-- The map on the arguments as given: `x : [4, 2048, 4096]`, `u : [4096, 64]` (output-major, read transposed),
    `v : [64, 4096]`. -/
def lowRank (x : (⟨3, ![4, 2048, 4096]⟩ : Shape).Idx → EReal) (u : (⟨2, ![4096, 64]⟩ : Shape).Idx → EReal)
    (v : (⟨2, ![64, 4096]⟩ : Shape).Idx → EReal) : (⟨3, ![4, 2048, 4096]⟩ : Shape).Idx → EReal :=
  fun i => rowOut (fun k => x (ix3 (i 0) (i 1) k)) (fun r k => v (ix2 r k)) (fun r q => u (ix2 q r)) (i 2)

end Cert.LowRank

end
-- ==== Proof.Payload.lean ====
/-
  The body's arithmetic read at an index, at the ideal instance.

  The body forms `h = x_blk · Vᵀ` (a product contracting the 4096-long axis of both operands, into a zero
  accumulator) and then, for each of four 1024-wide column chunks of the weights, `h · Ut_chunk` (contracting
  the 64-long rank axis). Every change of float format is the identity on extended reals and every shape cast
  is to the same shape, so at an index `(p, q)` of a chunk the stored value is
      `Σ_r (Σ_k x_blk (p, k) · V (r, k)) · Ut_chunk (r, q)`.
  Each product is read as the sum over its contraction index, re-indexed to `Fin 4096` / `Fin 64`; the operand
  indices are named coordinate by coordinate.
-/
import proofs.«423971_j15221364097486_3_alg».proof.Proof.Gen.KernelIdeal.Skeleton
import proofs.«423971_j15221364097486_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.LowRank

open Cert.KernelIdeal Cert.KernelIdeal.Gen Cert.LowRank Idealize.ShloMosaic Idealize.ShloMosaic.ValueIdx

/-! ## The projection `x_blk · Vᵀ`: operand indices, axis by axis -/

theorem lhs_proj_0 (i : S512x64.Idx) (q : dot_S512x4096_S64x4096_S512x64_1_1_0_0_n_n.contr.Idx) :
    (dot_S512x4096_S64x4096_S512x64_1_1_0_0_n_n.lhsIdx i q 0).val = (i 0).val := by
  unfold DotDims.lhsIdx
  rw [dif_neg (show ¬(0 : Fin S512x4096.rank) ∈ dot_S512x4096_S64x4096_S512x64_1_1_0_0_n_n.lhsBatch by decide), dif_pos (show (0 : Fin S512x4096.rank) ∈ dot_S512x4096_S64x4096_S512x64_1_1_0_0_n_n.lhsNonContracting by decide)]
  rfl
theorem lhs_proj_1 (i : S512x64.Idx) (q : dot_S512x4096_S64x4096_S512x64_1_1_0_0_n_n.contr.Idx) :
    (dot_S512x4096_S64x4096_S512x64_1_1_0_0_n_n.lhsIdx i q 1).val = (q ⟨0, by decide⟩).val :=
  dot_S512x4096_S64x4096_S512x64_1_1_0_0_n_n.lhsIdx_val_of_single rfl i q
theorem rhs_proj_0 (i : S512x64.Idx) (q : dot_S512x4096_S64x4096_S512x64_1_1_0_0_n_n.contr.Idx) :
    (dot_S512x4096_S64x4096_S512x64_1_1_0_0_n_n.rhsIdx i q 0).val = (i 1).val := by
  unfold DotDims.rhsIdx
  rw [dif_neg (show ¬(0 : Fin S64x4096.rank) ∈ dot_S512x4096_S64x4096_S512x64_1_1_0_0_n_n.rhsBatch by decide), dif_pos (show (0 : Fin S64x4096.rank) ∈ dot_S512x4096_S64x4096_S512x64_1_1_0_0_n_n.rhsNonContracting by decide)]
  rfl
theorem rhs_proj_1 (i : S512x64.Idx) (q : dot_S512x4096_S64x4096_S512x64_1_1_0_0_n_n.contr.Idx) :
    (dot_S512x4096_S64x4096_S512x64_1_1_0_0_n_n.rhsIdx i q 1).val = (q ⟨0, by decide⟩).val :=
  dot_S512x4096_S64x4096_S512x64_1_1_0_0_n_n.rhsIdx_val_of_single rfl i q

/-- Entry `(p, r)` of the projection: row `p` of the block against rank direction `r`. -/
theorem proj_apply (v0 : FVec Ideal S512x4096 .f32) (v3 : FVec Ideal S64x4096 .bf16) (p : Fin 512) (r : Fin 64) :
    k0_pay1 (F := Ideal) v0 v3 (ix2 p r) = ∑ k : Fin 4096, v0 (ix2 p k) * v3 (ix2 r k) := by
  unfold k0_pay1
  simp only [matmul, shapeCast_self]
  refine (Ideal.matmul_constant_zero_apply dot_S512x4096_S64x4096_S512x64_1_1_0_0_n_n none _ _ (ix2 p r)).trans ?_
  rw [← Equiv.sum_comp (contrEquiv1 dot_S512x4096_S64x4096_S512x64_1_1_0_0_n_n 4096 rfl rfl).symm]
  refine Finset.sum_congr rfl fun k _ => ?_
  have hk := contrEquiv1_symm_val dot_S512x4096_S64x4096_S512x64_1_1_0_0_n_n 4096 rfl rfl k
  have el : dot_S512x4096_S64x4096_S512x64_1_1_0_0_n_n.lhsIdx (ix2 p r) ((contrEquiv1 dot_S512x4096_S64x4096_S512x64_1_1_0_0_n_n 4096 rfl rfl).symm k) = ix2 p k := funext fun a => Fin.ext (by
    match a with
    | ⟨0, _⟩ => exact lhs_proj_0 _ _
    | ⟨1, _⟩ => exact (lhs_proj_1 _ _).trans hk)
  have er : dot_S512x4096_S64x4096_S512x64_1_1_0_0_n_n.rhsIdx (ix2 p r) ((contrEquiv1 dot_S512x4096_S64x4096_S512x64_1_1_0_0_n_n 4096 rfl rfl).symm k) = ix2 r k := funext fun a => Fin.ext (by
    match a with
    | ⟨0, _⟩ => exact rhs_proj_0 _ _
    | ⟨1, _⟩ => exact (rhs_proj_1 _ _).trans hk)
  rw [el, er]
  rfl

/-! ## The expansion `h · Ut_chunk`: operand indices, axis by axis -/

theorem lhs_exp_0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem lhs_exp_1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
theorem rhs_exp_0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
theorem rhs_exp_1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- Entry `(p, q)` of one expanded chunk: the 64 projections of row `p` against column `q` of the chunk's weights. -/
theorem expand_apply (v0 : FVec Ideal S512x4096 .f32) (v3 : FVec Ideal S64x4096 .bf16) (v7 : FVec Ideal S64x1024 .bf16)
    (p : Fin 512) (q : Fin 1024) :
    k0_pay2 (F := Ideal) v0 v3 v7 (ix2 p q) = ∑ r : Fin 64, k0_pay1 (F := Ideal) v0 v3 (ix2 p r) * v7 (ix2 r q) := by
  unfold k0_pay2
  generalize k0_pay1 (F := Ideal) v0 v3 = h
  simp only [matmul, shapeCast_self]
  refine (Ideal.matmul_constant_zero_apply dot_S512x64_S64x1024_S512x1024_1_0_0_1_n_n none _ _ (ix2 p q)).trans ?_
  rw [← Equiv.sum_comp (contrEquiv1 dot_S512x64_S64x1024_S512x1024_1_0_0_1_n_n 64 rfl rfl).symm]
  refine Finset.sum_congr rfl fun r _ => ?_
  have hr := contrEquiv1_symm_val dot_S512x64_S64x1024_S512x1024_1_0_0_1_n_n 64 rfl rfl r
  have el : dot_S512x64_S64x1024_S512x1024_1_0_0_1_n_n.lhsIdx (ix2 p q) ((contrEquiv1 dot_S512x64_S64x1024_S512x1024_1_0_0_1_n_n 64 rfl rfl).symm r) = ix2 p r := funext fun a => Fin.ext (by
    match a with
    | ⟨0, _⟩ => exact lhs_exp_0 _ _
    | ⟨1, _⟩ => exact (lhs_exp_1 _ _).trans hr)
  have er : dot_S512x64_S64x1024_S512x1024_1_0_0_1_n_n.rhsIdx (ix2 p q) ((contrEquiv1 dot_S512x64_S64x1024_S512x1024_1_0_0_1_n_n 64 rfl rfl).symm r) = ix2 r q := funext fun a => Fin.ext (by
    match a with
    | ⟨0, _⟩ => exact (rhs_exp_0 _ _).trans hr
    | ⟨1, _⟩ => exact rhs_exp_1 _ _)
  rw [el, er]

/-- The four chunk payloads are one function of their loads. -/
theorem pay3_eq : k0_pay3 (F := Ideal) = k0_pay2 (F := Ideal) := rfl
theorem pay4_eq : k0_pay4 (F := Ideal) = k0_pay2 (F := Ideal) := rfl
theorem pay5_eq : k0_pay5 (F := Ideal) = k0_pay2 (F := Ideal) := rfl

end Cert.KernelIdeal.LowRank

end
-- ==== Proof.Block.lean ====
/-
  What the body leaves in the output block: `blockOut` of the three input blocks.

  The body writes the 512 × 4096 output block as four 512 × 1024 column tiles, tile `j` being the projection
  of the rows times columns `1024·j … 1024·j + 1023` of the weights. Each tile's payload at a local index
  `(p, q)` is `blockOut` at the block index `(p, 1024·j + q)` under the tile, so the four tiles, which cover
  the block, assemble to `blockOut`.
-/
import proofs.«423971_j15221364097486_3_alg».proof.Proof.Gen.KernelIdeal.Frame
import proofs.«423971_j15221364097486_3_alg».proof.Proof.Payload

noncomputable section

open scoped BigOperators

namespace Cert.KernelIdeal.LowRank

open Cert.KernelIdeal Cert.KernelIdeal.Gen Cert.LowRank Idealize.ShloMosaic Idealize.ShloMosaic.ValueIdx

theorem zero_off : (![0, 0] : Fin 2 → Nat) = fun _ => 0 := funext fun a => by fin_cases a <;> rfl

/-- The tile at column offset `c`: its payload at `(p, q)` is `blockOut` at `(p, c + q)`, the block index under the tile. -/
theorem tile_eq (c : Nat) (inbW : ∀ a, (![0, c] : Fin 2 → Nat) a + S64x1024.size a ≤ S64x4096.size a)
    (inbO : ∀ a, (![0, c] : Fin 2 → Nat) a + S512x1024.size a ≤ S512x4096.size a)
    (x0 : FVec Ideal S512x4096 .f32) (x1 x2 : FVec Ideal S64x4096 .bf16) (x : S512x1024.Idx) :
    k0_pay2 (F := Ideal) x0 x1 (View.ld x2 (Rect.unit (s := S64x4096) ![0, c] S64x1024.size inbW)) x
      = blockOut x0 x1 x2 ((Rect.unit (s := S512x4096) ![0, c] S512x1024.size inbO).emb x) := by
  obtain ⟨p, q, rfl⟩ : ∃ (p : Fin 512) (q : Fin 1024), x = ix2 p q := ⟨x 0, x 1, eq_ix2 x⟩
  have hc : c + 1024 ≤ 4096 := inbO 1
  have he : (Rect.unit (s := S512x4096) ![0, c] S512x1024.size inbO).emb (ix2 p q) = ix2 p (⟨c + q.val, by omega⟩ : Fin 4096) := by
    funext a; apply Fin.ext
    match a with
    | ⟨0, _⟩ => show 0 + 1 * p.val = p.val; omega
    | ⟨1, _⟩ => show c + 1 * q.val = c + q.val; omega
  have hi : ∀ r : Fin 64, (Rect.unit (s := S64x4096) ![0, c] S64x1024.size inbW).emb (ix2 r q) = ix2 r (⟨c + q.val, by omega⟩ : Fin 4096) := fun r => by
    funext a; apply Fin.ext
    match a with
    | ⟨0, _⟩ => show 0 + 1 * r.val = r.val; omega
    | ⟨1, _⟩ => show c + 1 * q.val = c + q.val; omega
  have hl : ∀ r : Fin 64, View.ld (Val := Elt Ideal) (e' := .bf16) x2 (Rect.unit (s := S64x4096) ![0, c] S64x1024.size inbW) (ix2 r q) = x2 (ix2 r (⟨c + q.val, by omega⟩ : Fin 4096)) := fun r => by
    show x2 ((Rect.unit (s := S64x4096) ![0, c] S64x1024.size inbW).emb (ix2 r q)) = _
    rw [hi r]
  rw [expand_apply, he]
  unfold blockOut rowOut
  refine Finset.sum_congr rfl fun r _ => ?_
  rw [proj_apply, hl]

/-- The output block after the body is `blockOut` of the input blocks. -/
theorem out_eq (x0 : FVec Ideal S512x4096 .f32) (x1 x2 : FVec Ideal S64x4096 .bf16) :
    out0_3 (F := Ideal) x0 x1 x2 = blockOut x0 x1 x2 := by
  funext y
  unfold out0_3
  rw [View.ld_unit_zero (S := S512x4096) zero_off, View.ld_unit_zero (S := S64x4096) zero_off]
  refine View.canon_apply_of_pieces (Val := Elt Ideal) (S := S512x4096) (e := .f32) (blockOut x0 x1 x2) _ ?_ y (cover0_3 _ _ _ _ y)
  intro pc hpc x
  simp only [List.mem_cons, List.mem_nil_iff, or_false] at hpc
  rcases hpc with rfl | rfl | rfl | rfl
  · exact tile_eq 3072 inb_S64x4096_S64x1024_0_3072 inb_S512x4096_S512x1024_0_3072 x0 x1 x2 x
  · exact tile_eq 2048 inb_S64x4096_S64x1024_0_2048 inb_S512x4096_S512x1024_0_2048 x0 x1 x2 x
  · exact tile_eq 1024 inb_S64x4096_S64x1024_0_1024 inb_S512x4096_S512x1024_0_1024 x0 x1 x2 x
  · exact tile_eq 0 inb_S64x4096_S64x1024_0_0 inb_S512x4096_S512x1024_0_0 x0 x1 x2 x

end Cert.KernelIdeal.LowRank

end
-- ==== Proof.Region.lean ====
/-
  The array the region leaves: `flatOut` of the three arrays the region finds.

  Grid point `t` (of 16) stages rows `512·t … 512·t + 511` of the flattened activations and all of both weight
  arrays, and writes back rows `512·t … 512·t + 511` of the output. So what point `t` writes back is block `t`
  of the one whole-array function `flatOut`: row `p` of the block is row `512·t + p` of the array, and the
  weights are read whole. The 16 row blocks cover the 8192 rows (row `i` lies in block `i / 512`), so the array
  after the region is `flatOut` everywhere.
-/
import proofs.«423971_j15221364097486_3_alg».proof.Proof.Block
import Idealize.ShloMosaic.Lib.Pipeline.Value

noncomputable section

open scoped BigOperators

namespace Cert.KernelIdeal.LowRank

open Cert.KernelIdeal Cert.KernelIdeal.Gen Cert.LowRank Idealize.ShloMosaic Idealize.ShloMosaic.TcCoe Idealize.SL.Sem Idealize.ShloMosaic.ValueIdx
open Idealize.ShloMosaic.Pipeline (Dat)

/-- A block entry is an array entry once the block's row is a row of the array, the weight blocks are the weight
    arrays, and the column is the same. -/
theorem blockOut_eq_flatOut (X : FVec Ideal S8192x4096 .f32) (Vb Ut : FVec Ideal S64x4096 .bf16)
    (b0 : FVec Ideal S512x4096 .f32) (b1 b2 : FVec Ideal S64x4096 .bf16) (y : S512x4096.Idx) (i : S8192x4096.Idx)
    (h0 : ∀ k : Fin 4096, b0 (ix2 (y 0) k) = X (ix2 (i 0) k))
    (h1 : ∀ (r : Fin 64) (k : Fin 4096), b1 (ix2 r k) = Vb (ix2 r k))
    (h2 : ∀ r : Fin 64, b2 (ix2 r (y 1)) = Ut (ix2 r (i 1))) :
    blockOut b0 b1 b2 y = flatOut X Vb Ut i := by
  unfold blockOut flatOut rowOut
  refine Finset.sum_congr rfl fun r _ => ?_
  exact congrArg₂ (· * ·) (Finset.sum_congr rfl fun k _ => congrArg₂ (· * ·) (h0 k) (h1 r k)) (h2 r)

variable (m : (ℓ : Loc nD τ sig) → Buf (Elt Ideal) ℓ) (ρ : Dev nD → PrngReg)

/-- The printed index maps over the 16 grid points: the activations' and the output's block index is `(t, 0)`,
    both weight arrays' `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `flatOut` of the arrays as the region finds them. -/
theorem flushed_eq (c : Dev nD) (t : Fin cfg0.N) :
    (dats m 0 c).flushed 3 t
      = ((cfg0.win 3).blk t).view.read (Elt Ideal) (flatOut (V m c main_v0) (V m c main_v1) (V m c main_v3)) := by
  show (cfg0.win 3).cut (grid0.coords t) ((dats m 0 c).after 3 t) = _
  rw [after0_3]
  obtain ⟨e00, e01, e10, e11, e20, e21, e30, e31⟩ := idx_facts t
  funext j
  show out0_3 (iblk m c 0 t) (iblk m c 1 t) (iblk m c 2 t) j
    = flatOut (V m c main_v0) (V m c main_v1) (V m c main_v3) (((cfg0.win 3).blk t).view.emb j)
  refine (congrFun (out_eq (iblk m c 0 t) (iblk m c 1 t) (iblk m c 2 t)) j).trans ?_
  refine blockOut_eq_flatOut (V m c main_v0) (V m c main_v1) (V m c main_v3) (iblk m c 0 t) (iblk m c 1 t) (iblk m c 2 t)
    j (((cfg0.win 3).blk t).view.emb j) (fun k => ?_) (fun r k => ?_) (fun r => ?_)
  · show V m c main_v0 (((cfg0.win 0).blk t).view.emb (ix2 (j 0) k)) = V m c main_v0 (ix2 ((((cfg0.win 3).blk t).view.emb j) 0) k)
    refine congrArg (V m c main_v0) ?_
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 4096 + 1 * k.val = k.val; omega
  · show V m c main_v1 (((cfg0.win 1).blk t).view.emb (ix2 r k)) = V m c main_v1 (ix2 r k)
    refine congrArg (V m c main_v1) ?_
    funext a; apply Fin.ext
    match a with
    | ⟨0, _⟩ => show win0_1.index t (0 : Fin 2) * 64 + 1 * r.val = r.val; omega
    | ⟨1, _⟩ => show win0_1.index t (1 : Fin 2) * 4096 + 1 * k.val = k.val; omega
  · show V m c main_v3 (((cfg0.win 2).blk t).view.emb (ix2 r (j 1))) = V m c main_v3 (ix2 r ((((cfg0.win 3).blk t).view.emb j) 1))
    refine congrArg (V m c main_v3) ?_
    funext a; apply Fin.ext
    match a with
    | ⟨0, _⟩ => show win0_2.index t (0 : Fin 2) * 64 + 1 * r.val = r.val; omega
    | ⟨1, _⟩ => show win0_2.index t (1 : Fin 2) * 4096 + 1 * (j 1).val = win0_3.index t (1 : Fin 2) * 4096 + 1 * (j 1).val; omega

/-- An index of the output array is in point `t`'s block iff each coordinate is in the block's range on its axis. -/
theorem mem_blk (t : Fin cfg0.N) (i : S8192x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v4).slice (win0_3.rect t)).set ↔ _
  rw [View.set_slice_whole, Rect.mem_set_unit]
  exact Iff.rfl

/-- Every row block is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-- Every index of the output array is in the block of the point that holds its row: row `i` is in block `i / 512`. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- The output array after the region. -/
theorem region_array (c : Dev nD) :
    (dats m 0 c).arrAt 3 cfg0.N = flatOut (V m c main_v0) (V m c main_v1) (V m c main_v3) :=
  (dats m 0 c).arrAt_eq_of_cover 3 (flatOut (V m c main_v0) (V m c main_v1) (V m c main_v3)) (fun t _ => flushed_eq m c t) covered

end Cert.KernelIdeal.LowRank

end
-- ==== Proof.KernelValue.lean ====
/-
  The kernel program's result is `lowRank` of its arguments.

  Around the region the program only re-lays data: before it, `x : [4, 2048, 4096]` is flattened to
  `[8192, 4096]` (row `2048·b + s` is row `(b, s)`), `V` changes float format (the identity on extended reals),
  and `U : [4096, 64]` is transposed to `[64, 4096]` and changes format; after it, the `[8192, 4096]` output is
  folded back to `[4, 2048, 4096]`. So the result at `(b, s, o)` is the region's array at `(2048·b + s, o)`, which
  is `rowOut` of row `(b, s)` of `x`, with `V` as the rank directions and `U (o, r)` as the weights.
-/
import proofs.«423971_j15221364097486_3_alg».proof.Proof.Region
import Idealize.ShloMosaic.Lib.StableHlo.Run

noncomputable section

open scoped BigOperators

namespace Cert.KernelIdeal.LowRank

open Cert.KernelIdeal Cert.KernelIdeal.Gen Cert.LowRank Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-- The flattened activations the region finds: row `2048·b + s` is row `(b, s)` of `x`. -/
theorem flat_x (c : Dev nD) (b : Fin 4) (s : Fin 2048) (k : Fin 4096) :
    V m c main_v0 (ix2 (⟨b.val * 2048 + s.val, by have := b.isLt; have := s.isLt; omega⟩ : Fin 8192) k)
      = m ((c : Thread nD τ).loc main_arg0) (ix3 b s k) := by
  have e : (V m c main_v0 : S8192x4096.Idx → EReal)
      = shapeCast S8192x4096 (m ((c : Thread nD τ).loc main_arg0)) shapeCasts_S4x2048x4096_S8192x4096 := by
    show StableHlo.after hostOps0 (fun b => m (c, b)) (Proc.devRef .tc main_v0) = _
    after_results
    rfl
  rw [e]
  exact shapeCast_apply (s := S4x2048x4096) (t := S8192x4096) _ _ _ (ix3 b s k) (by
    show (S4x2048x4096.rowMajor (ix3 b s k)).val
      = (S8192x4096.rowMajor (ix2 (⟨b.val * 2048 + s.val, by have := b.isLt; have := s.isLt; omega⟩ : Fin 8192) k)).val
    rw [Shape.rowMajor_val_three, Shape.rowMajor_val_two]; rfl)

/-- The rank directions the region finds are `V`: a change of float format is the identity. -/
theorem directions (c : Dev nD) : (V m c main_v1 : S64x4096.Idx → EReal) = m ((c : Thread nD τ).loc main_arg2) := by
  show StableHlo.after hostOps0 (fun b => m (c, b)) (Proc.devRef .tc main_v1) = _
  after_results
  rfl

/-- The weights the region finds are `U` transposed: entry `(r, q)` is `U (q, r)`. -/
theorem weights (c : Dev nD) (r : Fin 64) (q : Fin 4096) :
    V m c main_v3 (ix2 r q) = m ((c : Thread nD τ).loc main_arg1) (ix2 q r) := by
  have e : (V m c main_v3 : S64x4096.Idx → EReal)
      = transpose S64x4096 [1, 0] (m ((c : Thread nD τ).loc main_arg1)) transposes_S4096x64_S64x4096_1_0 := by
    show StableHlo.after hostOps0 (fun b => m (c, b)) (Proc.devRef .tc main_v3) = _
    after_results
    rfl
  rw [e]
  exact transpose_apply [1, 0] _ _ (ix2 r q) (ix2 q r) (fun b => by
    match b with
    | ⟨0, _⟩ => rfl
    | ⟨1, _⟩ => rfl)

/-- The program's result after the lines that follow the region: `lowRank` of the arguments. -/
theorem tail_value (c : Dev nD) :
    (Pipeline.afterTail₀ cfgs (dats m) 0 (V0 m) [hostOps1] c main_v5 : S4x2048x4096.Idx → EReal)
      = lowRank (m ((c : Thread nD τ).loc main_arg0)) (m ((c : Thread nD τ).loc main_arg1)) (m ((c : Thread nD τ).loc main_arg2)) := by
  have ha : Pipeline.withArrays (cfgs 0).spec c (V0 m c) (fun w => (dats m 0 c).arrAt w (cfgs 0).N) (Proc.devRef .tc main_v4)
      = flatOut (V m c main_v0) (V m c main_v1) (V m c main_v3) :=
    (Pipeline.withArrays_arr spec0 launch0.win.arr_inj c _ _ 3).trans (region_array m c)
  have e : (Pipeline.afterTail₀ cfgs (dats m) 0 (V0 m) [hostOps1] c main_v5 : S4x2048x4096.Idx → EReal)
      = shapeCast S4x2048x4096 (flatOut (V m c main_v0) (V m c main_v1) (V m c main_v3)) shapeCasts_S8192x4096_S4x2048x4096 := by
    unfold Pipeline.afterTail₀
    show StableHlo.after hostOps1 _ (Proc.devRef .tc main_v5) = _
    after_results
    rw [ha]
    rfl
  rw [e]
  funext i
  obtain ⟨b, s, o, rfl⟩ : ∃ (b : Fin 4) (s : Fin 2048) (o : Fin 4096), i = ix3 b s o := ⟨i 0, i 1, i 2, eq_ix3 i⟩
  refine (shapeCast_apply (s := S8192x4096) (t := S4x2048x4096) _ _ (ix3 b s o)
    (ix2 (⟨b.val * 2048 + s.val, by have := b.isLt; have := s.isLt; omega⟩ : Fin 8192) o) (by
      show (S8192x4096.rowMajor (ix2 (⟨b.val * 2048 + s.val, by have := b.isLt; have := s.isLt; omega⟩ : Fin 8192) o)).val
        = (S4x2048x4096.rowMajor (ix3 b s o)).val
      rw [Shape.rowMajor_val_two, Shape.rowMajor_val_three]; rfl)).trans ?_
  unfold flatOut lowRank rowOut
  refine Finset.sum_congr rfl fun r _ => ?_
  exact congrArg₂ (· * ·)
    (Finset.sum_congr rfl fun k _ => congrArg₂ (· * ·) (flat_x m c b s k) (congrFun (directions m c) (ix2 r k)))
    (weights m c r o)

/-- The kernel program's run: it terminates with its result at `lowRank` of the arguments, the arguments unchanged. -/
theorem kernel_run : θ_run defs (onTc (τ := τ) (main (F := Ideal))) ⟨m, fun _ => 0, ρ⟩ fun r => ∀ c : Dev nD,
      r.2.mem ((c.tc : Thread nD τ).loc main_v5)
        = lowRank (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v5 (Pipeline.mem_restRefs_of main_v5 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.LowRank

end
-- ==== Proof.RefSide.lean ====
/-
  The reference computes `lowRank`.

  Its two contractions read at an index: the first gives, for row `(b, s)` and rank direction `r`,
  `Σ_k x (b, s, k) · V (r, k)`; the second combines these with `U (o, r)` over `r`. Naming the operand indices
  by their coordinates, the result at `(b, s, o)` is `rowOut` of row `(b, s)` of `x` with `V` as the rank
  directions and `U` read transposed: `lowRank x U V`.
-/
import proofs.«423971_j15221364097486_3_alg».proof.Proof.Gen.ReferenceIdeal.Read
import proofs.«423971_j15221364097486_3_alg».proof.Proof.Spec

noncomputable section

open scoped BigOperators

namespace Cert.ReferenceIdeal.LowRank

open Cert.ReferenceIdeal Cert.ReferenceIdeal.Gen Cert.ReferenceIdeal.Read Cert.LowRank Idealize.ShloMosaic Idealize.ShloMosaic.ValueIdx

/-- The reference's result, as a function of its three arguments, is `lowRank`. -/
theorem reference_eq (x : (⟨S4x2048x4096, .f32⟩ : BufTy).Contents (Elt Ideal)) (u : (⟨S4096x64, .f32⟩ : BufTy).Contents (Elt Ideal))
    (v : (⟨S64x4096, .f32⟩ : BufTy).Contents (Elt Ideal)) :
    val_main_v1 (F := Ideal) x u v = lowRank x u v := by
  funext i
  rw [val_main_v1_apply]
  unfold lowRank rowOut
  refine Finset.sum_congr rfl fun r _ => ?_
  rw [val_main_v0_apply]
  have e1 : ∀ k : Fin 4096, lidx_main_v0 (lidx_main_v1 i r) k = ix3 (i 0) (i 1) k := fun k => funext fun a => Fin.ext (by
    match a with
    | ⟨0, _⟩ => rfl
    | ⟨1, _⟩ => rfl
    | ⟨2, _⟩ => rfl)
  have e2 : ∀ k : Fin 4096, ridx_main_v0 (lidx_main_v1 i r) k = ix2 r k := fun k => funext fun a => Fin.ext (by
    match a with
    | ⟨0, _⟩ => rfl
    | ⟨1, _⟩ => rfl)
  have e3 : ridx_main_v1 i r = ix2 (i 2) r := funext fun a => Fin.ext (by
    match a with
    | ⟨0, _⟩ => rfl
    | ⟨1, _⟩ => rfl)
  exact congrArg₂ (· * ·) (Finset.sum_congr rfl fun k _ => congrArg₂ (· * ·) (congrArg x (e1 k)) (congrArg v (e2 k))) (congrArg u e3)

end Cert.ReferenceIdeal.LowRank

end
-- ==== Proof.lean ====
/-
  A rank-64 linear layer, computed in two contractions: `out (b, s, o) = Σ_r (Σ_k x (b, s, k) · V (r, k)) · U (o, r)`.

  The kernel flattens `x` to 8192 rows, walks them in 16 blocks of 512, and in each block forms the 512 × 64
  projection onto the rank directions and then the 512 × 4096 output as four 1024-wide column tiles; the
  reference contracts `x` with `V` and the result with `U` directly. Over the extended reals every change of
  float format is the identity and a product into a zero accumulator is the plain sum, so both programs end
  with the same nested sum, `Cert.LowRank.lowRank`, entry by entry. The two sides nest the sums the same way,
  so the equality uses no distributivity and never opens the finiteness precondition.

  The modules: `Spec` (the function), `Payload` (the body's two products read at an index), `Block` (the four
  tiles assemble to the block function), `Region` (the 16 row blocks assemble to the whole array), `KernelValue`
  (the data re-laying around the region, and the kernel program's run), `RefSide` (the reference is the function).
  The frames of the two kernel programs and the reference's run are the generated ones.
-/
import proofs.«423971_j15221364097486_3_alg».proof.Defs
import proofs.«423971_j15221364097486_3_alg».proof.Proof.Gen.Kernel
import proofs.«423971_j15221364097486_3_alg».proof.Proof.Gen.Kernel.Skeleton
import proofs.«423971_j15221364097486_3_alg».proof.Proof.Gen.Kernel.Launch
import proofs.«423971_j15221364097486_3_alg».proof.Proof.Gen.Kernel.Points
import proofs.«423971_j15221364097486_3_alg».proof.Proof.Gen.Kernel.Frame
import proofs.«423971_j15221364097486_3_alg».proof.Proof.Gen.KernelIdeal
import proofs.«423971_j15221364097486_3_alg».proof.Proof.Gen.KernelIdeal.Skeleton
import proofs.«423971_j15221364097486_3_alg».proof.Proof.Gen.KernelIdeal.Launch
import proofs.«423971_j15221364097486_3_alg».proof.Proof.Gen.KernelIdeal.Points
import proofs.«423971_j15221364097486_3_alg».proof.Proof.Gen.KernelIdeal.Frame
import proofs.«423971_j15221364097486_3_alg».proof.Proof.Gen.ReferenceIdeal
import proofs.«423971_j15221364097486_3_alg».proof.Proof.Gen.ReferenceIdeal.Run
import proofs.«423971_j15221364097486_3_alg».proof.Proof.Gen.ReferenceIdeal.Read
import proofs.«423971_j15221364097486_3_alg».proof.Proof.Gen.Pre_finite_inputs
import proofs.«423971_j15221364097486_3_alg».proof.Proof.KernelValue
import proofs.«423971_j15221364097486_3_alg».proof.Proof.RefSide
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x`, `U` and `V`, both programs end with `lowRank x U V`. -/
theorem algebraic : Cert.algebraic_KernelIdeal_ReferenceIdeal := by
  intro m ρ m' ρ' _ hagree
  refine ⟨fun c => Cert.LowRank.lowRank
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.LowRank.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.LowRank.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
